-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S64x2048 : Shape := ⟨2, ![64, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S64x2048 : S_.BroadcastsInDim S64x2048 (![] : Fin 0 → Fin S64x2048.rank)
  reducesTo_S64x2048_S_d0_1 : S64x2048.ReducesTo [0, 1] S_

variable [Facts]

def fn {F : FTy → Type} [FloatOps F] (main_arg0 : FVec F S16384x2048 .f32) (main_arg1 : FVec F S64x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  main_v8
-- ==== Kernel.lean ====
abbrev S16384x2048 : Shape := ⟨2, ![16384, 2048]⟩
abbrev S64x2048 : Shape := ⟨2, ![64, 2048]⟩
abbrev S64x16384 : Shape := ⟨2, ![64, 16384]⟩
abbrev S1024x2048 : Shape := ⟨2, ![1024, 2048]⟩
abbrev S64x1024 : Shape := ⟨2, ![64, 1024]⟩
abbrev S1024 : Shape := ⟨1, ![1024]⟩
abbrev S1x1024 : Shape := ⟨2, ![1, 1024]⟩
abbrev S16384x64 : Shape := ⟨2, ![16384, 64]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S64x16384, .f32⟩
  | .hbm, ⟨3, _⟩ => ⟨S16384x64, .f32⟩
  | .local _ .vmem, ⟨0, _⟩ => ⟨S1024x2048, .f32⟩
  | .local _ .vmem, ⟨1, _⟩ => ⟨S1024x2048, .f32⟩
  | .local _ .vmem, ⟨2, _⟩ => ⟨S64x2048, .f32⟩
  | .local _ .vmem, ⟨3, _⟩ => ⟨S64x1024, .f32⟩
  | .local _ .vmem, ⟨4, _⟩ => ⟨S64x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S64x2048_S64x2048_0_0 : ∀ a, (![0, 0] : Fin 2 → Nat) a + S64x2048.size a ≤ S64x2048.size a
  h_S64x2048 : 0 < S64x2048.numel
  inb_S1024x2048_S1024x2048_0_0 : ∀ a, (![0, 0] : Fin 2 → Nat) a + S1024x2048.size a ≤ S1024x2048.size a
  h_S1024x2048 : 0 < S1024x2048.numel
  reduces_S64x1024_S1024 : S64x1024.Reduces [0] S1024
  shapeCasts_S1024_S1x1024 : S1024.ShapeCasts S1x1024
  broadcasts_S1x1024_S64x1024 : S1x1024.Broadcasts S64x1024
  inb_S64x1024_S64x1024_0_0 : ∀ a, (![0, 0] : Fin 2 → Nat) a + S64x1024.size a ≤ S64x1024.size a
  h_S64x1024 : 0 < S64x1024.numel
  transposes_S64x16384_S16384x64_1_0 : S64x16384.Transposes [1, 0] S16384x64
  dot_S64x2048_S1024x2048_S64x1024_1_1_0_0_n_n_wf : DotDims.WF S64x2048 S1024x2048 S64x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x2048.size a
  hwx0_1 : ∀ i : grid0.Coords, EltTy.bits .f32 = 32 ∨ (Rect.block (s := S64x2048) S64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x16384.size a
  hwx0_2 : ∀ i : grid0.Coords, EltTy.bits .f32 = 32 ∨ (Rect.block (s := S64x16384) S64x1024.size (cc0_transform_2 i) (hinb0_2 i)).WholeWords (EltTy.packing .f32)

variable [Facts₀]

def dot_S64x2048_S1024x2048_S64x1024_1_1_0_0_n_n : DotDims S64x2048 S1024x2048 S64x1024 where
  lhsContracting := [1]
  rhsContracting := [1]
  lhsNonContracting := [0]
  rhsNonContracting := [0]
  lhsBatch := []
  rhsBatch := []
  wf := dot_S64x2048_S1024x2048_S64x1024_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S64x2048 : Shape := ⟨2, ![64, 2048]⟩
abbrev S2048x64 : Shape := ⟨2, ![2048, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S2048x64, .f32⟩
  | .hbm, ⟨3, _⟩ => ⟨S16384x64, .f32⟩
  | .hbm, ⟨4, _⟩ => ⟨S_, .f32⟩
  | .hbm, ⟨5, _⟩ => ⟨S16384, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S16384x1, .f32⟩
  | .hbm, ⟨10, _⟩ => ⟨S16384x64, .f32⟩
  | .hbm, ⟨11, _⟩ => ⟨S16384x64, .f32⟩
  | .hbm, ⟨12, _⟩ => ⟨S16384x64, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x64, .f32⟩
  | .hbm, ⟨17, _⟩ => ⟨S16384x64, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  transposes_S64x2048_S2048x64_1_0 : S64x2048.Transposes [1, 0] S2048x64
  reducesTo_S16384x64_S16384_d1 : S16384x64.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  dot_S16384x2048_S2048x64_S16384x64_1_0_0_1_n_n_wf : DotDims.WF S16384x2048 S2048x64 S16384x64 [1] [0] [0] [1] [] []

variable [Facts₀]

def dot_S16384x2048_S2048x64_S16384x64_1_0_0_1_n_n : DotDims S16384x2048 S2048x64 S16384x64 where
  lhsContracting := [1]
  rhsContracting := [0]
  lhsNonContracting := [0]
  rhsNonContracting := [1]
  lhsBatch := []
  rhsBatch := []
  wf := dot_S16384x2048_S2048x64_S16384x64_1_0_0_1_n_n_wf

class Facts : Prop extends Facts₀ where

variable [Facts]
-- ==== Proof.Softmax.lean ====
/-
  The function both programs compute, stated once over the extended reals.

  A token `t` has 64 scores, one per expert: `score x W t e = Σ_k W[e,k] · x[t,k]` over the 2048 input
  features.  The router's output for the token is the softmax of its scores: with `M` the largest score
  (the fold of `max` from −∞), entry `e` is `exp (score e − M) / Σ_e' exp (score e' − M)`.  `probs` lays
  the result out as [tokens, experts], `probsT` as [experts, tokens]; they are one function read with
  the two coordinates exchanged.
-/
import Idealize.ShloMosaic.PureOps.Ideal
import Idealize.ShloMosaic.PureOps.Ideal.Laws
import Idealize.ShloMosaic.Lib.ValueIdx

noncomputable section

namespace Cert.Router

open Idealize.ShloMosaic Idealize.ShloMosaic.ValueIdx

/-- The float −∞, as the word both programs print for the start of a running maximum. -/
abbrev negInf : EReal := Ideal.ofBits .f32 0xFF800000#32

/-- −∞ is neutral for `max` on the extended reals. -/
theorem negInf_max (y : EReal) : max negInf y = y := by
  simp [negInf, Ideal.ofBits, Ideal.ieee]

/-- The largest of 64 scores, as the fold of `max` from −∞. -/
def top (L : Fin 64 → EReal) : EReal := (Finset.univ : Finset (Fin 64)).fold max negInf L

/-- The softmax of 64 scores at expert `e`: the exponential of the score less the largest score, over the sum of
    those exponentials. -/
def softmax (L : Fin 64 → EReal) (e : Fin 64) : EReal :=
  Ideal.div (Ideal.exp (L e - top L)) (∑ e' : Fin 64, Ideal.exp (L e' - top L))

/-- Token `t`'s score for expert `e`: the inner product of the expert's weight row with the token's features. -/
def score (x : (⟨2, ![16384, 2048]⟩ : Shape).Idx → EReal) (W : (⟨2, ![64, 2048]⟩ : Shape).Idx → EReal)
    (t : Fin 16384) (e : Fin 64) : EReal :=
  ∑ k : Fin 2048, W (ix2 e k) * x (ix2 t k)

/-- The router's output, [tokens, experts]. -/
def probs (x : (⟨2, ![16384, 2048]⟩ : Shape).Idx → EReal) (W : (⟨2, ![64, 2048]⟩ : Shape).Idx → EReal) :
    (⟨2, ![16384, 64]⟩ : Shape).Idx → EReal :=
  fun i => softmax (score x W (i 0)) (i 1)

/-- The same laid out [experts, tokens]. -/
def probsT (x : (⟨2, ![16384, 2048]⟩ : Shape).Idx → EReal) (W : (⟨2, ![64, 2048]⟩ : Shape).Idx → EReal) :
    (⟨2, ![64, 16384]⟩ : Shape).Idx → EReal :=
  fun i => softmax (score x W (i 1)) (i 0)

end Cert.Router

end
-- ==== Proof.Tile.lean ====
/-
  One grid point's tile, read entry by entry.

  The body of the kernel sees the whole weight array `w` [64, 2048] and a block `xb` of 1024 tokens
  [1024, 2048], and writes a tile [64, 1024].  Entry (e, j) of the tile is the softmax, at expert `e`, of the
  64 scores `Σ_k w[e',k] · xb[j,k]` of the block's token `j`: the product contracts the feature axis of both
  operands, the largest score and the sum of the exponentials are taken down a column of the tile (over the
  experts), and both are spread back over the column before the subtraction and the quotient.
-/
import proofs.«168145_g24893630448048_cont_9to1_1163_9_alg».proof.Proof.Gen.KernelIdeal.Skeleton
import proofs.«168145_g24893630448048_cont_9to1_1163_9_alg».proof.Proof.Softmax
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx Cert.Router

/-! ## The product: both operands contracted on their feature axis -/

theorem lhs_0 (i : S64x1024.Idx) (q : dot_S64x2048_S1024x2048_S64x1024_1_1_0_0_n_n.contr.Idx) :
    (dot_S64x2048_S1024x2048_S64x1024_1_1_0_0_n_n.lhsIdx i q 0).val = (i 0).val := by
  unfold DotDims.lhsIdx
  rw [dif_neg (show ¬(0 : Fin S64x2048.rank) ∈ dot_S64x2048_S1024x2048_S64x1024_1_1_0_0_n_n.lhsBatch by decide), dif_pos (show (0 : Fin S64x2048.rank) ∈ dot_S64x2048_S1024x2048_S64x1024_1_1_0_0_n_n.lhsNonContracting by decide)]
  rfl
theorem lhs_1 (i : S64x1024.Idx) (q : dot_S64x2048_S1024x2048_S64x1024_1_1_0_0_n_n.contr.Idx) :
    (dot_S64x2048_S1024x2048_S64x1024_1_1_0_0_n_n.lhsIdx i q 1).val = (q ⟨0, by decide⟩).val :=
  dot_S64x2048_S1024x2048_S64x1024_1_1_0_0_n_n.lhsIdx_val_of_single rfl i q
theorem rhs_0 (i : S64x1024.Idx) (q : dot_S64x2048_S1024x2048_S64x1024_1_1_0_0_n_n.contr.Idx) :
    (dot_S64x2048_S1024x2048_S64x1024_1_1_0_0_n_n.rhsIdx i q 0).val = (i 1).val := by
  unfold DotDims.rhsIdx
  rw [dif_neg (show ¬(0 : Fin S1024x2048.rank) ∈ dot_S64x2048_S1024x2048_S64x1024_1_1_0_0_n_n.rhsBatch by decide), dif_pos (show (0 : Fin S1024x2048.rank) ∈ dot_S64x2048_S1024x2048_S64x1024_1_1_0_0_n_n.rhsNonContracting by decide)]
  rfl
theorem rhs_1 (i : S64x1024.Idx) (q : dot_S64x2048_S1024x2048_S64x1024_1_1_0_0_n_n.contr.Idx) :
    (dot_S64x2048_S1024x2048_S64x1024_1_1_0_0_n_n.rhsIdx i q 1).val = (q ⟨0, by decide⟩).val :=
  dot_S64x2048_S1024x2048_S64x1024_1_1_0_0_n_n.rhsIdx_val_of_single rfl i q

/-- The tile of scores at (e, j): the inner product of weight row `e` with the block's token `j`. -/
theorem scores_apply (w : FVec Ideal S64x2048 .f32) (xb : FVec Ideal S1024x2048 .f32) (e : Fin 64) (j : Fin 1024) :
    matmul dot_S64x2048_S1024x2048_S64x1024_1_1_0_0_n_n none w xb (constant S64x1024 .f32 0x00000000#32) (ix2 e j)
      = ∑ k : Fin 2048, w (ix2 e k) * xb (ix2 j k) := by
  simp only [matmul]
  rw [Ideal.matmul_constant_zero_apply, ← Equiv.sum_comp (contrEquiv1 dot_S64x2048_S1024x2048_S64x1024_1_1_0_0_n_n 2048 rfl rfl).symm]
  refine Finset.sum_congr rfl fun k _ => ?_
  have hk := contrEquiv1_symm_val dot_S64x2048_S1024x2048_S64x1024_1_1_0_0_n_n 2048 rfl rfl k
  have el : dot_S64x2048_S1024x2048_S64x1024_1_1_0_0_n_n.lhsIdx (ix2 e j) ((contrEquiv1 dot_S64x2048_S1024x2048_S64x1024_1_1_0_0_n_n 2048 rfl rfl).symm k) = ix2 e k := funext fun a => Fin.ext (by
    match a with
    | ⟨0, _⟩ => exact lhs_0 _ _
    | ⟨1, _⟩ => exact (lhs_1 _ _).trans hk)
  have er : dot_S64x2048_S1024x2048_S64x1024_1_1_0_0_n_n.rhsIdx (ix2 e j) ((contrEquiv1 dot_S64x2048_S1024x2048_S64x1024_1_1_0_0_n_n 2048 rfl rfl).symm k) = ix2 j k := funext fun a => Fin.ext (by
    match a with
    | ⟨0, _⟩ => exact rhs_0 _ _
    | ⟨1, _⟩ => exact (rhs_1 _ _).trans hk)
  rw [el, er]

/-! ## Down a column of the tile, and back over it -/

/-- The entry of column `j` in row `r`, as the reduction over the rows names it. -/
theorem lift_col (h : S64x1024.Reduces [0] S1024) (j : Fin 1024) (r : Fin 64) :
    h.lift (ix1 j) r = ix2 r j :=
  funext fun c => Fin.ext (by match c with | ⟨0, _⟩ => rfl | ⟨1, _⟩ => rfl)

/-- The running maximum down column `j`, from −∞. -/
theorem colMax_apply (v : FVec Ideal S64x1024 .f32) (h : S64x1024.Reduces [0] S1024) (hφ : FKind.Formats .f32)
    (hacc : (0xFF800000#32 : BitVec 32) = FKind.maximumf.neutral .f32 hφ) (j : Fin 1024) :
    multiReduction .maximumf [0] S1024 v 0xFF800000#32 h hφ hacc (ix1 j) = top fun r => v (ix2 r j) :=
  (Ideal.multiReduction_maximumf_single v 0xFF800000#32 h hφ hacc (ix1 j)).trans
    (congrArg (fun f => (Finset.univ : Finset (Fin 64)).fold max negInf f) (funext fun r => congrArg v (lift_col h j r)))

/-- The sum down column `j`. -/
theorem colSum_apply (v : FVec Ideal S64x1024 .f32) (h : S64x1024.Reduces [0] S1024) (hφ : FKind.Formats .f32)
    (hacc : (0x00000000#32 : BitVec 32) = FKind.add.neutral .f32 hφ) (j : Fin 1024) :
    multiReduction .add [0] S1024 v 0x00000000#32 h hφ hacc (ix1 j) = ∑ r : Fin 64, v (ix2 r j) :=
  (Ideal.multiReduction_add_single v 0x00000000#32 h hφ hacc (ix1 j)).trans
    (Finset.sum_congr rfl fun r _ => congrArg v (lift_col h j r))

/-- One value per column, given a unit row axis and repeated down the 64 rows: every row reads its column's value. -/
theorem spread_apply (u : FVec Ideal S1024 .f32) (h1 : S1024.ShapeCasts S1x1024) (h2 : S1x1024.Broadcasts S64x1024)
    (e : Fin 64) (j : Fin 1024) :
    broadcastTo S64x1024 (shapeCast S1x1024 u h1) h2 (ix2 e j) = u (ix1 j) := by
  refine (broadcastTo_apply _ h2 (ix2 e j) (ix2 0 j) fun a => ?_).trans (shapeCast_apply u h1 (ix2 0 j) (ix1 j) ?_)
  · match a with
    | ⟨0, _⟩ => show (0 : ℕ) = if (1 : ℕ) = 1 then 0 else _; rw [if_pos rfl]
    | ⟨1, _⟩ => show j.val = if (1024 : ℕ) = 1 then 0 else j.val; rw [if_neg (by decide)]
  · rw [Shape.rowMajor_val_one, Shape.rowMajor_val_two]; show j.val = 0 * 1024 + j.val; omega

/-! ## The softmax down the columns of a tile of scores -/

/-- For any tile `S` of scores [experts, tokens]: subtracting each column's maximum, exponentiating, and dividing by
    each column's sum gives, at (e, j), the softmax of column `j` at expert `e`. -/
theorem softmax_cols (S : FVec Ideal S64x1024 .f32) (hr : S64x1024.Reduces [0] S1024) (h1 : S1024.ShapeCasts S1x1024)
    (h2 : S1x1024.Broadcasts S64x1024) (hφ : FKind.Formats .f32)
    (hmax : (0xFF800000#32 : BitVec 32) = FKind.maximumf.neutral .f32 hφ)
    (hadd : (0x00000000#32 : BitVec 32) = FKind.add.neutral .f32 hφ) (e : Fin 64) (j : Fin 1024) :
    divf (exp (subf S (broadcastTo S64x1024 (shapeCast S1x1024 (multiReduction .maximumf [0] S1024 S 0xFF800000#32 hr hφ hmax) h1) h2)))
        (broadcastTo S64x1024 (shapeCast S1x1024 (multiReduction .add [0] S1024
          (exp (subf S (broadcastTo S64x1024 (shapeCast S1x1024 (multiReduction .maximumf [0] S1024 S 0xFF800000#32 hr hφ hmax) h1) h2)))
          0x00000000#32 hr hφ hadd) h1) h2) (ix2 e j)
      = softmax (fun r => S (ix2 r j)) e := by
  have hE : ∀ r : Fin 64,
      exp (subf S (broadcastTo S64x1024 (shapeCast S1x1024 (multiReduction .maximumf [0] S1024 S 0xFF800000#32 hr hφ hmax) h1) h2)) (ix2 r j)
        = Ideal.exp (S (ix2 r j) - top fun r' => S (ix2 r' j)) := fun r => by
    show Ideal.exp (S (ix2 r j) - broadcastTo S64x1024 (shapeCast S1x1024 (multiReduction .maximumf [0] S1024 S 0xFF800000#32 hr hφ hmax) h1) h2 (ix2 r j)) = _
    rw [spread_apply, colMax_apply]
  show Ideal.div (exp (subf S (broadcastTo S64x1024 (shapeCast S1x1024 (multiReduction .maximumf [0] S1024 S 0xFF800000#32 hr hφ hmax) h1) h2)) (ix2 e j))
      (broadcastTo S64x1024 (shapeCast S1x1024 (multiReduction .add [0] S1024
          (exp (subf S (broadcastTo S64x1024 (shapeCast S1x1024 (multiReduction .maximumf [0] S1024 S 0xFF800000#32 hr hφ hmax) h1) h2)))
          0x00000000#32 hr hφ hadd) h1) h2 (ix2 e j)) = _
  rw [spread_apply, colSum_apply, hE e]
  unfold softmax
  exact congrArg _ (Finset.sum_congr rfl fun r _ => hE r)

/-! ## The tile -/

/-- Entry (e, j) of the tile the body stores: the softmax at expert `e` of the scores of the block's token `j`. -/
theorem tile_apply (w : Vec Ideal S64x2048 .f32) (xb : Vec Ideal S1024x2048 .f32) (e : Fin 64) (j : Fin 1024) :
    k0_pay1 (F := Ideal) w xb (ix2 e j) = softmax (fun r => ∑ k : Fin 2048, w (ix2 r k) * xb (ix2 j k)) e := by
  unfold k0_pay1
  dsimp only
  refine (softmax_cols _ _ _ _ _ _ _ e j).trans ?_
  exact congrArg (fun L => softmax L e) (funext fun r => scores_apply w xb r j)

end Cert.KernelIdeal.Tile

end
-- ==== Proof.Blocks.lean ====
/-
  From the 16 tiles to the whole array.

  Grid point `t` reads the block of tokens `1024·t … 1024·t + 1023` (all 2048 features) and the whole weight
  array, and writes columns `1024·t … 1024·t + 1023` of the [64, 16384] result.  So entry (e, 1024·t + j) of
  the result is the tile's entry (e, j), the softmax at expert `e` of the scores of token `1024·t + j`: each
  tile is a block of the one function `probsT`, and the 16 blocks tile the array, so the array ends holding
  `probsT` of the two argument arrays.
-/
import proofs.«168145_g24893630448048_cont_9to1_1163_9_alg».proof.Proof.Gen.KernelIdeal.Frame
import proofs.«168145_g24893630448048_cont_9to1_1163_9_alg».proof.Proof.Tile
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx Cert.Router
open Idealize.ShloMosaic.Pipeline (Dat)

variable (m : (ℓ : Loc nD τ sig) → Buf (Elt Ideal) ℓ) (ρ : Dev nD → PrngReg)

theorem zero_off : (![0, 0] : Fin 2 → Nat) = fun _ => 0 := funext fun a => by fin_cases a <;> rfl

/-- A tile is a block of `probsT`: if the token block `xb` holds tokens `1024·p + j` of `X` and `w` is the weight
    array, the tile's entry `y` is `probsT X Wt` at the same expert and at token `1024·p + y₁`. -/
theorem tile_eq_probsT (X : Vec Ideal S16384x2048 .f32) (Wt : Vec Ideal S64x2048 .f32)
    (w : Vec Ideal S64x2048 .f32) (xb : Vec Ideal S1024x2048 .f32) (p : ℕ)
    (hw : ∀ (r : Fin 64) (k : Fin 2048), w (ix2 r k) = Wt (ix2 r k))
    (hx : ∀ (j : Fin 1024) (k : Fin 2048) (T : Fin 16384), T.val = p * 1024 + j.val → xb (ix2 j k) = X (ix2 T k))
    (y : S64x1024.Idx) (i : S64x16384.Idx) (h0 : (i 0).val = (y 0).val) (h1 : (i 1).val = p * 1024 + (y 1).val) :
    k0_pay1 (F := Ideal) w xb y = probsT X Wt i := by
  obtain ⟨e, j, rfl⟩ : ∃ (e : Fin 64) (j : Fin 1024), y = ix2 e j := ⟨y 0, y 1, eq_ix2 y⟩
  rw [Tile.tile_apply]
  unfold probsT
  have he : i 0 = e := Fin.ext h0
  rw [he]
  refine congrArg (fun L => softmax L e) (funext fun r => ?_)
  unfold score
  exact Finset.sum_congr rfl fun k _ => by rw [hw r k, hx j k (i 1) h1]

/-- The printed index maps over the grid: the token window moves one block per point, the weight window stays, the
    result window moves one block of columns per point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val :=
  (by decide +kernel : ∀ t : Fin grid0.N, _)

/-- What point `t` writes back is block `t` of `probsT` of the argument arrays as the region finds them. -/
theorem flushed_eq (c : Dev nD) (t : Fin cfg0.N) :
    (dats m 0 c).flushed 2 t = ((cfg0.win 2).blk t).view.read (Elt Ideal) (probsT (V m c main_arg0) (V m c main_arg1)) := by
  show (cfg0.win 2).cut (grid0.coords t) ((dats m 0 c).after 2 t) = _
  rw [after0_2]
  unfold out0_2
  rw [View.canon_unit_zero zero_off]
  simp only [View.ld_unit_zero (S := S64x2048) zero_off, View.ld_unit_zero (S := S1024x2048) zero_off]
  obtain ⟨e0, e1, e2, e3, e4, e5⟩ := idx_facts t
  funext y
  show k0_pay1 (F := Ideal) (iblk m c 1 t) (iblk m c 0 t) y
    = probsT (V m c main_arg0) (V m c main_arg1) (((cfg0.win 2).blk t).view.emb y)
  refine tile_eq_probsT (V m c main_arg0) (V m c main_arg1) (iblk m c 1 t) (iblk m c 0 t) t.val ?_ ?_ y _ ?_ ?_
  · intro r k
    show V m c main_arg1 (((cfg0.win 1).blk t).view.emb (ix2 r k)) = V m c main_arg1 (ix2 r k)
    refine congrArg (V m c main_arg1) (funext fun a => Fin.ext ?_)
    match a with
    | ⟨0, _⟩ => show win0_1.index t (0 : Fin 2) * 64 + 1 * r.val = r.val; omega
    | ⟨1, _⟩ => show win0_1.index t (1 : Fin 2) * 2048 + 1 * k.val = k.val; omega
  · intro j k T hT
    show V m c main_arg0 (((cfg0.win 0).blk t).view.emb (ix2 j k)) = V m c main_arg0 (ix2 T k)
    refine congrArg (V m c main_arg0) (funext fun a => Fin.ext ?_)
    match a with
    | ⟨0, _⟩ => show win0_0.index t (0 : Fin 2) * 1024 + 1 * j.val = T.val; omega
    | ⟨1, _⟩ => show win0_0.index t (1 : Fin 2) * 2048 + 1 * k.val = k.val; omega
  · show win0_2.index t (0 : Fin 2) * 64 + 1 * (y 0).val = (y 0).val; omega
  · show win0_2.index t (1 : Fin 2) * 1024 + 1 * (y 1).val = t.val * 1024 + (y 1).val; omega

/-- An index of the result array is in point `t`'s block iff each coordinate is in the block's range on its axis. -/
theorem mem_blk (t : Fin cfg0.N) (i : S64x16384.Idx) :
    i ∈ ((cfg0.win 2).blk t).view.set ↔ ∀ a : Fin 2, win0_2.index t a * S64x1024.size a ≤ (i a).val ∧ (i a).val < win0_2.index t a * S64x1024.size a + S64x1024.size a := by
  show i ∈ ((View.whole main_v0).slice (win0_2.rect t)).set ↔ _
  rw [View.set_slice_whole, Rect.mem_set_unit]
  exact Iff.rfl

/-- Every entry of the result array is written: column `T` by the point `T / 1024`. -/
theorem cover (i : S64x16384.Idx) :
    ∃ t : Fin cfg0.N, (cfg0.win 2).flush t = true ∧ i ∈ ((cfg0.win 2).blk t).view.set := by
  have hi0 : (i 0).val < 64 := (i 0).isLt
  have hi1 : (i 1).val < 16384 := (i 1).isLt
  have hlt : (i 1).val / 1024 < grid0.N := by rw [N_0]; omega
  obtain ⟨e0, e1, e2, e3, e4, e5⟩ := idx_facts ⟨(i 1).val / 1024, hlt⟩
  have e5' : win0_2.index ⟨(i 1).val / 1024, hlt⟩ (1 : Fin 2) = (i 1).val / 1024 := e5
  refine ⟨⟨(i 1).val / 1024, hlt⟩, flush0_2 _, ?_⟩
  rw [mem_blk]
  intro a
  match a with
  | ⟨0, _⟩ => show win0_2.index ⟨(i 1).val / 1024, hlt⟩ (0 : Fin 2) * 64 ≤ (i 0).val ∧ (i 0).val < win0_2.index ⟨(i 1).val / 1024, hlt⟩ (0 : Fin 2) * 64 + 64; omega
  | ⟨1, _⟩ => show win0_2.index ⟨(i 1).val / 1024, hlt⟩ (1 : Fin 2) * 1024 ≤ (i 1).val ∧ (i 1).val < win0_2.index ⟨(i 1).val / 1024, hlt⟩ (1 : Fin 2) * 1024 + 1024; omega

/-- The result array after the region: `probsT` of the argument arrays. -/
theorem final (c : Dev nD) : (dats m 0 c).arrAt 2 cfg0.N = probsT (V m c main_arg0) (V m c main_arg1) :=
  (dats m 0 c).arrAt_eq_of_cover 2 _ (fun t _ => flushed_eq m c t) cover

end Cert.KernelIdeal.Whole

end
-- ==== Proof.KernelRun.lean ====
/-
  The kernel program's run, read.

  After the region the result array [64, 16384] holds `probsT` of the arguments (the 16 tiles); the one host
  line that follows transposes it, so the program's result [16384, 64] at (t, e) is `probsT` at (e, t), which is
  `probs` at (t, e): the two layouts are one function with the coordinates exchanged.  The arguments are only
  read.
-/
import proofs.«168145_g24893630448048_cont_9to1_1163_9_alg».proof.Proof.Blocks
import Idealize.ShloMosaic.Lib.StableHlo.Run
import Idealize.ShloMosaic.Lib.Pipeline.FrameSuffix

noncomputable section

namespace Cert.KernelIdeal.Whole

open Cert.KernelIdeal Cert.KernelIdeal.Gen Idealize.ShloMosaic Idealize.ShloMosaic.TcCoe Idealize.SL.Sem
open Idealize.ShloMosaic.ValueIdx Cert.Router
open Idealize.ShloMosaic.Pipeline (Dat)

variable (m : (ℓ : Loc nD τ sig) → Buf (Elt Ideal) ℓ) (ρ : Dev nD → PrngReg)

/-- The program's result after the transpose that follows the region: `probs` of the arguments as launched. -/
theorem tail_eq (c : Dev nD) :
    Pipeline.afterTail₀ cfgs (dats m) 0 (V0 m) [hostOps1] c main_v1
      = probs (m ((c : Thread nD τ).loc main_arg0)) (m ((c : Thread nD τ).loc main_arg1)) := by
  unfold Pipeline.afterTail₀
  show StableHlo.after hostOps1 _ (Proc.devRef .tc main_v1) = _
  after_results
  have hA : Pipeline.withArrays (cfgs 0).spec c (V0 m c) (fun w => (dats m 0 c).arrAt w (cfgs 0).N) (Proc.devRef .tc main_v0)
      = probsT (V m c main_arg0) (V m c main_arg1) :=
    (Pipeline.withArrays_arr spec0 launch0.win.arr_inj c _ _ 2).trans (final m c)
  rw [hA]
  funext i
  obtain ⟨t, e, rfl⟩ : ∃ (t : Fin 16384) (e : Fin 64), i = ix2 t e := ⟨i 0, i 1, eq_ix2 i⟩
  rw [transpose_apply [1, 0] _ transposes_S64x16384_S16384x64_1_0 (ix2 t e) (ix2 e t) (fun b => match b with | ⟨0, _⟩ => rfl | ⟨1, _⟩ => rfl)]
  rfl

/-- Every weakly fair execution of the kernel program terminates with its result at `probs` of the arguments and the
    arguments unchanged. -/
theorem run : θ_run defs (onTc (τ := τ) (main (F := Ideal))) ⟨m, fun _ => 0, ρ⟩ fun r => ∀ c : Dev nD,
      r.2.mem ((c : Thread nD τ).loc main_v1) = probs (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v1 (Pipeline.mem_restRefs_of main_v1 rfl (by decide))).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.Whole

end
-- ==== Proof.Reference.lean ====
/-
  The reference, read entry by entry.

  The reference multiplies the tokens by the transposed weights, `logits[t,e] = Σ_k x[t,k] · W[e,k]` — the
  score of the specification with the two factors exchanged —, takes each token's largest logit as a running
  maximum from −∞ over the experts (and once more against −∞, which changes nothing), subtracts it,
  exponentiates, and divides by the sum over the experts: entry (t, e) of its result is the softmax of token
  `t`'s scores at expert `e`.
-/
import proofs.«168145_g24893630448048_cont_9to1_1163_9_alg».proof.Proof.Gen.ReferenceIdeal.Read
import proofs.«168145_g24893630448048_cont_9to1_1163_9_alg».proof.Proof.Softmax
import Idealize.ShloMosaic.PureOps.Reduce

noncomputable section

namespace Cert.ReferenceIdeal.Entry

open Cert.ReferenceIdeal Cert.ReferenceIdeal.Gen Cert.ReferenceIdeal.Read Idealize.ShloMosaic Idealize.ShloMosaic.ValueIdx Cert.Router

variable (x : (⟨S16384x2048, .f32⟩ : BufTy).Contents (Elt Ideal)) (W : (⟨S64x2048, .f32⟩ : BufTy).Contents (Elt Ideal))

/-- The logits are the scores: the product of reals commutes. -/
theorem logits_apply (t : Fin 16384) (e : Fin 64) :
    val_main_v1 (F := Ideal) x W (ix2 t e) = score x W t e := by
  rw [val_main_v1_apply]
  unfold score
  refine Finset.sum_congr rfl fun k _ => ?_
  rw [val_main_v0_apply, mul_comm]
  have el : lidx_main_v1 (ix2 t e) k = ix2 t k := funext fun a => Fin.ext (by match a with | ⟨0, _⟩ => rfl | ⟨1, _⟩ => rfl)
  have er : idx_main_v0 (ridx_main_v1 (ix2 t e) k) = ix2 e k := funext fun a => Fin.ext (by match a with | ⟨0, _⟩ => rfl | ⟨1, _⟩ => rfl)
  rw [el, er]

/-- Token `t`'s entry for expert `e`, as the reduction over the experts names it. -/
theorem lift_row (h : S16384x64.Reduces [1] S16384) (t : Fin 16384) (e : Fin 64) :
    h.lift (ix1 t) e = ix2 t e :=
  funext fun c => Fin.ext (by match c with | ⟨0, _⟩ => rfl | ⟨1, _⟩ => rfl)

/-- The reference's row maximum is the largest score. -/
theorem rowMax_apply (t : Fin 16384) :
    val_main_v4 (F := Ideal) x W (ix1 t) = top (score x W t) := by
  rw [val_main_v4_apply, val_main_v3_apply, val_main_cst_0_apply]
  show max negInf (val_main_v2 (F := Ideal) x W (ix1 t)) = _
  rw [negInf_max]
  unfold val_main_v2
  have h : S16384x64.Reduces [1] S16384 := by decide
  rw [Host.reduce_eq_fold_single FloatOps.maximumf _ _ _ h h_S_ (ix1 t)]
  unfold top
  refine congrArg (fun f => (Finset.univ : Finset (Fin 64)).fold max negInf f) (funext fun e => ?_)
  exact (congrArg (val_main_v1 (F := Ideal) x W) (lift_row h t e)).trans (logits_apply x W t e)

/-- The numerator at (t, e). -/
theorem num_apply (t : Fin 16384) (e : Fin 64) :
    val_main_v8 (F := Ideal) x W (ix2 t e) = Ideal.exp (score x W t e - top (score x W t)) := by
  rw [val_main_v8_apply, val_main_v7_apply, val_main_v6_apply, val_main_v5_apply, logits_apply]
  have ei : idx_main_v5 (idx_main_v6 (ix2 t e)) = ix1 t := funext fun a => Fin.ext (by match a with | ⟨0, _⟩ => rfl)
  rw [ei, rowMax_apply]
  rfl

/-- The denominator at (t, e): the sum of the row's numerators. -/
theorem den_apply (t : Fin 16384) (e : Fin 64) :
    val_main_v11 (F := Ideal) x W (ix2 t e) = ∑ e' : Fin 64, Ideal.exp (score x W t e' - top (score x W t)) := by
  rw [val_main_v11_apply, val_main_v10_apply, val_main_v9_apply, val_main_cst_1_apply]
  show Ideal.ofBits .f32 0x00000000#32 + _ = _
  rw [Ideal.ofBits_zero_f32, zero_add]
  refine Finset.sum_congr rfl fun e' _ => ?_
  have ei : idx_main_v9 (idx_main_v10 (idx_main_v11 (ix2 t e))) e' = ix2 t e' :=
    funext fun a => Fin.ext (by match a with | ⟨0, _⟩ => rfl | ⟨1, _⟩ => rfl)
  rw [ei, num_apply]

/-- The reference's result is `probs` of its arguments. -/
theorem result_eq : val_main_v12 (F := Ideal) x W = probs x W := by
  funext i
  obtain ⟨t, e, rfl⟩ : ∃ (t : Fin 16384) (e : Fin 64), i = ix2 t e := ⟨i 0, i 1, eq_ix2 i⟩
  rw [val_main_v12_apply, num_apply, den_apply]
  rfl

end Cert.ReferenceIdeal.Entry

end
-- ==== Proof.lean ====
/-
  The router: softmax over 64 experts of the scores `x · Wᵀ`, for 16384 tokens of 2048 features.

  Both programs compute, for token `t` and expert `e`,
      exp (s[t,e] − max_e' s[t,e']) / Σ_e' exp (s[t,e'] − max_e'' s[t,e'']),   s[t,e] = Σ_k W[e,k] · x[t,k]
  on the extended reals (`Cert.Router.probs`).  The kernel forms the scores of 1024 tokens at a time as a tile
  [experts, tokens], reduces down the tile's columns, writes the tile into a [64, 16384] array, and a transpose
  after the region exchanges the coordinates; the reference forms `x · Wᵀ` whole, reduces along the rows, and
  takes the row maximum once more against −∞.  The two agree entry by entry with no algebra beyond the
  commutativity of the product inside the score and −∞ being neutral for `max`; nothing here needs the inputs
  to be finite.

  The three frames are the generated ones (the reference's is its run with the result dropped); the idealized
  kernel is the kernel's own text read over the extended reals, so the idealization claim is `True`; the equivalence sets the kernel program's run
  (`Cert.KernelIdeal.Whole.run`) beside the reference's run read entry by entry
  (`Cert.ReferenceIdeal.Entry.result_eq`).
-/
import proofs.«168145_g24893630448048_cont_9to1_1163_9_alg».proof.Defs
import proofs.«168145_g24893630448048_cont_9to1_1163_9_alg».proof.Proof.Gen.Kernel
import proofs.«168145_g24893630448048_cont_9to1_1163_9_alg».proof.Proof.Gen.Kernel.Skeleton
import proofs.«168145_g24893630448048_cont_9to1_1163_9_alg».proof.Proof.Gen.Kernel.Launch
import proofs.«168145_g24893630448048_cont_9to1_1163_9_alg».proof.Proof.Gen.Kernel.Points
import proofs.«168145_g24893630448048_cont_9to1_1163_9_alg».proof.Proof.Gen.Kernel.Frame
import proofs.«168145_g24893630448048_cont_9to1_1163_9_alg».proof.Proof.Gen.KernelIdeal
import proofs.«168145_g24893630448048_cont_9to1_1163_9_alg».proof.Proof.Gen.KernelIdeal.Skeleton
import proofs.«168145_g24893630448048_cont_9to1_1163_9_alg».proof.Proof.Gen.KernelIdeal.Launch
import proofs.«168145_g24893630448048_cont_9to1_1163_9_alg».proof.Proof.Gen.KernelIdeal.Points
import proofs.«168145_g24893630448048_cont_9to1_1163_9_alg».proof.Proof.Gen.KernelIdeal.Frame
import proofs.«168145_g24893630448048_cont_9to1_1163_9_alg».proof.Proof.Gen.ReferenceIdeal
import proofs.«168145_g24893630448048_cont_9to1_1163_9_alg».proof.Proof.Gen.Pre_finite_inputs
import proofs.«168145_g24893630448048_cont_9to1_1163_9_alg».proof.Proof.Gen.ReferenceIdeal.Run
import proofs.«168145_g24893630448048_cont_9to1_1163_9_alg».proof.Proof.Gen.ReferenceIdeal.Read
import proofs.«168145_g24893630448048_cont_9to1_1163_9_alg».proof.Proof.KernelRun
import proofs.«168145_g24893630448048_cont_9to1_1163_9_alg».proof.Proof.Reference
import Idealize.ShloMosaic.Adequacy
import Idealize.ShloMosaic.Init

noncomputable section

namespace Cert.Proof

open Idealize.ShloMosaic Idealize.SL.Sem

/-- The kernel program ends at `probs` of its arguments and the reference at its composed term of its own, which is
    `probs` of them entry by entry; the arguments agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.Entry.result_eq, (hagree c).1, (hagree c).2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
